-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x2048 .f32) (main_arg5 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S32x2048x512 .f32) (main_arg1 : FVec F S8 .f32) (main_arg2 : FVec F S2048x8 .f32) (main_arg3 : FVec F S2048 .f32) (main_arg4 : FVec F S512x2048 .f32) (main_arg5 : FVec F S512 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S32x2048x512 : Shape := ⟨3, ![32, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S65536x512 : Shape := ⟨2, ![65536, 512]⟩
abbrev S8x2048 : Shape := ⟨2, ![8, 2048]⟩
abbrev S2048x512 : Shape := ⟨2, ![2048, 512]⟩
abbrev S1x8 : Shape := ⟨2, ![1, 8]⟩
abbrev S1x2048 : Shape := ⟨2, ![1, 2048]⟩
abbrev S1x512 : Shape := ⟨2, ![1, 512]⟩
abbrev S1024x512 : Shape := ⟨2, ![1024, 512]⟩
abbrev S1024x8 : Shape := ⟨2, ![1024, 8]⟩
abbrev S1024x2048 : Shape := ⟨2, ![1024, 2048]⟩

abbrev nBuf : Space → Nat
  | .hbm => 14
  | .vmem => 9
  | .smem => 0
  | _ => 0

abbrev bufTy : (tb : Table) → Fin (tcTables nBuf tb) → BufTy
  | .hbm, ⟨0, _⟩ => ⟨S32x2048x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S65536x512, .f32⟩
  | .hbm, ⟨7, _⟩ => ⟨S8x2048, .f32⟩
  | .hbm, ⟨8, _⟩ => ⟨S2048x512, .f32⟩
  | .hbm, ⟨9, _⟩ => ⟨S1x8, .f32⟩
  | .hbm, ⟨10, _⟩ => ⟨S1x2048, .f32⟩
  | .hbm, ⟨11, _⟩ => ⟨S1x512, .f32⟩
  | .hbm, ⟨12, _⟩ => ⟨S65536x512, .f32⟩
  | .hbm, ⟨13, _⟩ => ⟨S32x2048x512, .f32⟩
  | .local _ .vmem, ⟨0, _⟩ => ⟨S1024x512, .f32⟩
  | .local _ .vmem, ⟨1, _⟩ => ⟨S1024x512, .f32⟩
  | .local _ .vmem, ⟨2, _⟩ => ⟨S1x8, .f32⟩
  | .local _ .vmem, ⟨3, _⟩ => ⟨S8x2048, .f32⟩
  | .local _ .vmem, ⟨4, _⟩ => ⟨S1x2048, .f32⟩
  | .local _ .vmem, ⟨5, _⟩ => ⟨S2048x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x2048x512_S65536x512 : S32x2048x512.ShapeCasts S65536x512
  transposes_S2048x8_S8x2048_1_0 : S2048x8.Transposes [1, 0] S8x2048
  transposes_S512x2048_S2048x512_1_0 : S512x2048.Transposes [1, 0] S2048x512
  shapeCasts_S8_S1x8 : S8.ShapeCasts S1x8
  shapeCasts_S2048_S1x2048 : S2048.ShapeCasts S1x2048
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x512_o0_0_S1024x8 : S1024x512.Slices ![0, 0] S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S65536x512_S32x2048x512 : S65536x512.ShapeCasts S32x2048x512
  dot_S1024x8_S8x2048_S1024x2048_1_0_0_1_n_n_wf : DotDims.WF S1024x8 S8x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .f32 = 32 ∨ (Rect.block (s := S8x2048) S8x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .f32 = 32 ∨ (Rect.block (s := S2048x512) S2048x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S65536x512.size a
  hwx0_6 : ∀ i : grid0.Coords, EltTy.bits .f32 = 32 ∨ (Rect.block (s := S65536x512) S1024x512.size (cc0_transform_6 i) (hinb0_6 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S32x2048x8 : Shape := ⟨3, ![32, 2048, 8]⟩
abbrev S1x1x8 : Shape := ⟨3, ![1, 1, 8]⟩
abbrev S32x2048x2048 : Shape := ⟨3, ![32, 2048, 2048]⟩
abbrev S1x1x2048 : Shape := ⟨3, ![1, 1, 2048]⟩
abbrev S_ : Shape := ⟨0, ![]⟩
abbrev S1x1x512 : Shape := ⟨3, ![1, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8, .f32⟩
  | .hbm, ⟨7, _⟩ => ⟨S32x2048x8, .f32⟩
  | .hbm, ⟨8, _⟩ => ⟨S32x2048x8, .f32⟩
  | .hbm, ⟨9, _⟩ => ⟨S1x1x8, .f32⟩
  | .hbm, ⟨10, _⟩ => ⟨S32x2048x8, .f32⟩
  | .hbm, ⟨11, _⟩ => ⟨S32x2048x8, .f32⟩
  | .hbm, ⟨12, _⟩ => ⟨S32x2048x2048, .f32⟩
  | .hbm, ⟨13, _⟩ => ⟨S1x1x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048x2048, .f32⟩
  | .hbm, ⟨18, _⟩ => ⟨S32x2048x2048, .f32⟩
  | .hbm, ⟨19, _⟩ => ⟨S32x2048x512, .f32⟩
  | .hbm, ⟨20, _⟩ => ⟨S1x1x512, .f32⟩
  | .hbm, ⟨21, _⟩ => ⟨S32x2048x512, .f32⟩
  | .hbm, ⟨22, _⟩ => ⟨S32x2048x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S32x2048x512_S32x2048x8_0_0_0 : S32x2048x512.Slices ![0, 0, 0] S32x2048x8
  bcast_S8_S1x1x8_2 : S8.BroadcastsInDim S1x1x8 (![2] : Fin 1 → Fin S1x1x8.rank)
  bcast_S1x1x8_S32x2048x8_0_1_2 : S1x1x8.BroadcastsInDim S32x2048x8 (![0, 1, 2] : Fin 3 → Fin S32x2048x8.rank)
  bcast_S2048_S1x1x2048_2 : S2048.BroadcastsInDim S1x1x2048 (![2] : Fin 1 → Fin S1x1x2048.rank)
  bcast_S1x1x2048_S32x2048x2048_0_1_2 : S1x1x2048.BroadcastsInDim S32x2048x2048 (![0, 1, 2] : Fin 3 → Fin S32x2048x2048.rank)
  bcast_S_S32x2048x2048 : S_.BroadcastsInDim S32x2048x2048 (![] : Fin 0 → Fin S32x2048x2048.rank)
  bcast_S512_S1x1x512_2 : S512.BroadcastsInDim S1x1x512 (![2] : Fin 1 → Fin S1x1x512.rank)
  bcast_S1x1x512_S32x2048x512_0_1_2 : S1x1x512.BroadcastsInDim S32x2048x512 (![0, 1, 2] : Fin 3 → Fin S32x2048x512.rank)
  dot_S32x2048x8_S2048x8_S32x2048x2048_2_1_01_0_n_n_wf : DotDims.WF S32x2048x8 S2048x8 S32x2048x2048 [2] [1] [0, 1] [0] [] []
  dot_S32x2048x2048_S512x2048_S32x2048x512_2_1_01_0_n_n_wf : DotDims.WF S32x2048x2048 S512x2048 S32x2048x512 [2] [1] [0, 1] [0] [] []

variable [Facts₀]

def dot_S32x2048x8_S2048x8_S32x2048x2048_2_1_01_0_n_n : DotDims S32x2048x8 S2048x8 S32x2048x2048 where
  lhsContracting := [2]
  rhsContracting := [1]
  lhsNonContracting := [0, 1]
  rhsNonContracting := [0]
  lhsBatch := []
  rhsBatch := []
  wf := dot_S32x2048x8_S2048x8_S32x2048x2048_2_1_01_0_n_n_wf
def dot_S32x2048x2048_S512x2048_S32x2048x512_2_1_01_0_n_n : DotDims S32x2048x2048 S512x2048 S32x2048x512 where
  lhsContracting := [2]
  rhsContracting := [1]
  lhsNonContracting := [0, 1]
  rhsNonContracting := [0]
  lhsBatch := []
  rhsBatch := []
  wf := dot_S32x2048x2048_S512x2048_S32x2048x512_2_1_01_0_n_n_wf

class Facts : Prop extends Facts₀ where

variable [Facts]
-- ==== Proof.Spec.lean ====
/-
  The function both programs compute, on the extended reals.

  For one row of the input (a batch entry b and a position n) only the first eight lanes matter: the row's
  eight features are z q = cos θ_q · cos x[b, n, q]. A first affine layer followed by the positive part gives 2048
  hidden values h f = max (Σ_q z q · W1[f, q] + b1[f]) 0, and a second affine layer gives the 512 outputs
  out e = Σ_f h f · W2[e, f] + b2[e]. The row function `rowOut` is stated over accessor functions, so that a program
  holding a weight matrix transposed, or a bias as a one-row matrix, instantiates the same term.
-/
import Idealize.ShloMosaic.PureOps.Ideal
import Idealize.ShloMosaic.Lib.ValueIdx

noncomputable section

namespace Cert.FeedForward

open Idealize.ShloMosaic Idealize.ShloMosaic.ValueIdx

/-- One of the first eight lanes, as a lane of a 512-lane row. -/
abbrev lane (q : Fin 8) : Fin 512 := ⟨q.val, by have := q.isLt; omega⟩

/-- One output row from the row's eight features `z`: the hidden value at f is the positive part of
    Σ_q z q · w1 f q + c1 f, and the output at e is Σ_f hidden f · w2 e f + c2 e. The zero of the positive part is kept
    as the word both programs print. -/
def rowOut (z : Fin 8 → EReal) (w1 : Fin 2048 → Fin 8 → EReal) (c1 : Fin 2048 → EReal)
    (w2 : Fin 512 → Fin 2048 → EReal) (c2 : Fin 512 → EReal) (e : Fin 512) : EReal :=
  (∑ f : Fin 2048, max ((∑ q : Fin 8, z q * w1 f q) + c1 f) (Ideal.ofBits .f32 0x00000000#32) * w2 e f) + c2 e

/-- `rowOut` depends on its accessor functions only through their values. -/
theorem rowOut_congr {z z' : Fin 8 → EReal} {w1 w1' : Fin 2048 → Fin 8 → EReal} {c1 c1' : Fin 2048 → EReal}
    {w2 w2' : Fin 512 → Fin 2048 → EReal} {c2 c2' : Fin 512 → EReal}
    (hz : ∀ q, z q = z' q) (hw1 : ∀ f q, w1 f q = w1' f q) (hc1 : ∀ f, c1 f = c1' f)
    (hw2 : ∀ e f, w2 e f = w2' e f) (hc2 : ∀ e, c2 e = c2' e) (e : Fin 512) :
    rowOut z w1 c1 w2 c2 e = rowOut z' w1' c1' w2' c2' e := by
  obtain rfl : z = z' := funext hz
  obtain rfl : w1 = w1' := funext fun f => funext (hw1 f)
  obtain rfl : c1 = c1' := funext hc1
  obtain rfl : w2 = w2' := funext fun e => funext (hw2 e)
  obtain rfl : c2 = c2' := funext hc2
  rfl

/-- The eight features of row (b, n): cos θ_q · cos x[b, n, q]. -/
def features (x : (⟨3, ![32, 2048, 512]⟩ : Shape).Idx → EReal) (θ : (⟨1, ![8]⟩ : Shape).Idx → EReal)
    (b : Fin 32) (n : Fin 2048) (q : Fin 8) : EReal :=
  Ideal.cos (θ (ix1 q)) * Ideal.cos (x (ix3 b n (lane q)))

/-- The whole result, entry (b, n, e), as one function of the six argument arrays. -/
def out (x : (⟨3, ![32, 2048, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (W2 : (⟨2, ![512, 2048]⟩ : Shape).Idx → EReal) (b2 : (⟨1, ![512]⟩ : Shape).Idx → EReal)
    (b : Fin 32) (n : Fin 2048) (e : Fin 512) : EReal :=
  rowOut (features x θ b n) (fun f q => W1 (ix2 f q)) (fun f => b1 (ix1 f)) (fun e f => W2 (ix2 e f)) (fun e => b2 (ix1 e)) e

end Cert.FeedForward

end
-- ==== Proof.Reference.lean ====
/-
  The reference program computes `FeedForward.out`.

  Read one operation at a time, the reference's result at (b, n, e) is the sum over f of the positive part of
  (Σ_q (cos θ_q · cos x[b, n, q]) · W1[f, q] + b1[f]) times W2[e, f], plus b2[e]: the two contractions are sums over
  the contracted coordinate, the broadcasts read the bias and the angle at the last coordinate, the slice reads the
  first eight lanes. What is left is to identify the composed index functions with the coordinates themselves.
-/
import proofs.«144792_j65481071401652_1_alg».proof.Proof.Gen.ReferenceIdeal.Run
import proofs.«144792_j65481071401652_1_alg».proof.Proof.Gen.ReferenceIdeal.Read
import proofs.«144792_j65481071401652_1_alg».proof.Proof.Spec

noncomputable section

namespace Cert.FeedForward

open Idealize.ShloMosaic Idealize.ShloMosaic.ValueIdx
open Cert.ReferenceIdeal Cert.ReferenceIdeal.Read

/-- The angle read by the feature q of hidden unit f of row (b, n) is θ_q. -/
theorem ref_idx_theta (i : S32x2048x512.Idx) (f : Fin 2048) (q : Fin 8) :
    idx_main_v3 (idx_main_v4 (lidx_main_v6 (lidx_main_v11 i f) q)) = ix1 q :=
  funext fun a => by match a with | ⟨0, _⟩ => rfl

/-- The input entry read there is x[b, n, q]. -/
theorem ref_idx_x (i : S32x2048x512.Idx) (f : Fin 2048) (q : Fin 8) :
    idx_main_v1 (lidx_main_v6 (lidx_main_v11 i f) q) = ix3 (i 0) (i 1) (lane q) :=
  funext fun a => by match a with | ⟨0, _⟩ => rfl | ⟨1, _⟩ => rfl | ⟨2, _⟩ => rfl

/-- The first layer's weight read there is W1[f, q]. -/
theorem ref_idx_w1 (i : S32x2048x512.Idx) (f : Fin 2048) (q : Fin 8) :
    ridx_main_v6 (lidx_main_v11 i f) q = ix2 f q :=
  funext fun a => by match a with | ⟨0, _⟩ => rfl | ⟨1, _⟩ => rfl

/-- The first layer's bias read by hidden unit f is b1[f]. -/
theorem ref_idx_b1 (i : S32x2048x512.Idx) (f : Fin 2048) :
    idx_main_v7 (idx_main_v8 (lidx_main_v11 i f)) = ix1 f :=
  funext fun a => by match a with | ⟨0, _⟩ => rfl

/-- The second layer's weight read by output e from hidden unit f is W2[e, f]. -/
theorem ref_idx_w2 (i : S32x2048x512.Idx) (f : Fin 2048) : ridx_main_v11 i f = ix2 (i 2) f :=
  funext fun a => by match a with | ⟨0, _⟩ => rfl | ⟨1, _⟩ => rfl

/-- The second layer's bias read by output e is b2[e]. -/
theorem ref_idx_b2 (i : S32x2048x512.Idx) : idx_main_v12 (idx_main_v13 i) = ix1 (i 2) :=
  funext fun a => by match a with | ⟨0, _⟩ => rfl

/-- The reference's result, entry by entry, is `out` of the six arguments. -/
theorem reference_apply (x0 : (⟨S32x2048x512, .f32⟩ : BufTy).Contents (Elt Ideal)) (x1 : (⟨S8, .f32⟩ : BufTy).Contents (Elt Ideal))
    (x2 : (⟨S2048x8, .f32⟩ : BufTy).Contents (Elt Ideal)) (x3 : (⟨S2048, .f32⟩ : BufTy).Contents (Elt Ideal))
    (x4 : (⟨S512x2048, .f32⟩ : BufTy).Contents (Elt Ideal)) (x5 : (⟨S512, .f32⟩ : BufTy).Contents (Elt Ideal)) (i : S32x2048x512.Idx) :
    val_main_v14 (F := Ideal) x0 x1 x2 x3 x4 x5 i = out x0 x1 x2 x3 x4 x5 (i 0) (i 1) (i 2) := by
  rw [val_main_v14_apply, val_main_v11_apply, val_main_v13_apply, val_main_v12_apply]
  simp only [val_main_v10_apply, val_main_v9_apply, val_main_v6_apply, val_main_v8_apply, val_main_v7_apply,
    val_main_call0_v0_apply, val_main_call0_cst_apply, val_main_v5_apply, val_main_v4_apply, val_main_v3_apply,
    val_main_v0_apply, val_main_v2_apply, val_main_v1_apply,
    ref_idx_theta, ref_idx_x, ref_idx_w1, ref_idx_b1, ref_idx_w2, ref_idx_b2]
  rfl

end Cert.FeedForward

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.KernelBody.lean ====
/-
  What the kernel's body stores, entry by entry.

  At one grid point the body holds a block of 1024 rows of the flattened input, the angles as a one-row matrix, the
  first layer's weights transposed ([8, 2048]), its bias as a one-row matrix, the second layer's weights transposed
  ([2048, 512]) and its bias as a one-row matrix. Row p of what it stores is `rowOut` of that row's eight features:
  both matrix products start from the zero array, so each entry is the plain sum over the contracted coordinate; the
  one-row matrices are read at row 0, and the slice reads the first eight lanes.
-/
import proofs.«144792_j65481071401652_1_alg».proof.Proof.Gen.KernelIdeal.Skeleton
import proofs.«144792_j65481071401652_1_alg».proof.Proof.Spec
import proofs.«144792_j65481071401652_1_alg».proof.Proof.LibMatmulPlain
import Idealize.ShloMosaic.Lib.Pipeline.Value
import Idealize.ShloMosaic.Lib.ValueIdx
import Idealize.ShloMosaic.PureOps.Ideal.Laws

noncomputable section

namespace Cert.FeedForward

open Idealize.ShloMosaic Idealize.ShloMosaic.ValueIdx
open Cert.KernelIdeal Cert.KernelIdeal.Gen

/-- A one-row matrix broadcast down 1024 rows is read at row 0. -/
theorem rowBroadcast_apply {n : Nat} (hn : n ≠ 1) (y : (⟨2, ![1, n]⟩ : Shape).Idx → EReal)
    (h : (⟨2, ![1, n]⟩ : Shape).Broadcasts ⟨2, ![1024, n]⟩) (p : Fin 1024) (j : Fin n) :
    broadcastTo ⟨2, ![1024, n]⟩ y h (ix2 p j) = y (ix2 0 j) :=
  broadcastTo_apply y h (ix2 p j) (ix2 0 j) fun a => by
    match a with
    | ⟨0, _⟩ => show 0 = if (1 : Nat) = 1 then 0 else p.val; rw [if_pos rfl]
    | ⟨1, _⟩ => show j.val = if n = 1 then 0 else j.val; rw [if_neg hn]

/-- The first eight lanes of a block's row. -/
theorem firstLanes_apply (x : (⟨2, ![1024, 512]⟩ : Shape).Idx → EReal)
    (h : (⟨2, ![1024, 512]⟩ : Shape).Slices ![0, 0] ⟨2, ![1024, 8]⟩) (p : Fin 1024) (q : Fin 8) :
    extractStridedSlice ⟨2, ![1024, 8]⟩ ![0, 0] x h (ix2 p q) = x (ix2 p (lane q)) :=
  extractStridedSlice_apply ![0, 0] x h (ix2 p q) (ix2 p (lane q)) fun a => by
    match a with
    | ⟨0, _⟩ => show p.val = 0 + p.val; omega
    | ⟨1, _⟩ => show q.val = 0 + q.val; omega

/-- The first product: entry (p, f) of the features times the transposed first-layer weights. -/
theorem layer1_apply (z : FVec Ideal S1024x8 .f32) (w : FVec Ideal S8x2048 .f32) (p : Fin 1024) (f : Fin 2048) :
    matmul dot_S1024x8_S8x2048_S1024x2048_1_0_0_1_n_n none z w (constant S1024x2048 .f32 0x00000000#32) (ix2 p f)
      = ∑ q : Fin 8, z (ix2 p q) * w (ix2 q f) :=
  MatmulPlain.matmul_zero_apply (M := 1024) (K := 8) (N := 2048) none z w p f

/-- The second product: entry (p, e) of the hidden values times the transposed second-layer weights. -/
theorem layer2_apply (h : FVec Ideal S1024x2048 .f32) (w : FVec Ideal S2048x512 .f32) (p : Fin 1024) (e : Fin 512) :
    matmul dot_S1024x2048_S2048x512_S1024x512_1_0_0_1_n_n none h w (constant S1024x512 .f32 0x00000000#32) (ix2 p e)
      = ∑ f : Fin 2048, h (ix2 p f) * w (ix2 f e) :=
  MatmulPlain.matmul_zero_apply (M := 1024) (K := 2048) (N := 512) none h w p e

/-- Row p of the body's stored value is `rowOut` of that row's features, over the blocks the body loaded. -/
theorem payload_apply (v0 : Vec Ideal S1024x512 .f32) (v3 : Vec Ideal S1x8 .f32) (v9 : Vec Ideal S8x2048 .f32)
    (v11 : Vec Ideal S1x2048 .f32) (v18 : Vec Ideal S2048x512 .f32) (v20 : Vec Ideal S1x512 .f32) (p : Fin 1024) (e : Fin 512) :
    k0_pay1 (F := Ideal) v0 v3 v9 v11 v18 v20 (ix2 p e)
      = rowOut (fun q => Ideal.cos (v3 (ix2 0 q)) * Ideal.cos (v0 (ix2 p (lane q)))) (fun f q => v9 (ix2 q f))
          (fun f => v11 (ix2 0 f)) (fun e f => v18 (ix2 f e)) (fun e => v20 (ix2 0 e)) e := by
  unfold k0_pay1 rowOut
  dsimp only
  simp only [shapeCast_self]
  rw [addf_apply, layer2_apply, rowBroadcast_apply (by decide)]
  refine congrArg (· + v20 (ix2 0 e)) (Finset.sum_congr rfl fun f _ => ?_)
  rw [maximumf_apply, addf_apply, layer1_apply, rowBroadcast_apply (by decide), broadcast_apply]
  refine congrArg (fun s => max (s + v11 (ix2 0 f)) _ * v18 (ix2 f e)) (Finset.sum_congr rfl fun q _ => ?_)
  rw [mulf_apply, rowBroadcast_apply (by decide)]
  show Ideal.cos (v3 (ix2 0 q)) * Ideal.cos (extractStridedSlice S1024x8 ![0, 0] v0 _ (ix2 p q)) * v9 (ix2 q f) = _
  rw [firstLanes_apply]

end Cert.FeedForward

end
-- ==== Proof.KernelArrays.lean ====
/-
  The arrays the kernel region finds, entry by entry.

  Before the region the host flattens the input to [65536, 512] (row r of the flat array is row r mod 2048 of batch
  entry r / 2048), transposes both weight matrices, and turns the angles and the two biases into one-row matrices.
  Each of the six arrays the region stages is read here at an index of the argument it comes from.
-/
import proofs.«144792_j65481071401652_1_alg».proof.Proof.Gen.KernelIdeal.Frame
import Idealize.ShloMosaic.Lib.Pipeline.Value
import Idealize.ShloMosaic.Lib.ValueIdx
import Idealize.ShloMosaic.Lib.StableHlo.Run

noncomputable section

namespace Cert.FeedForward

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Batch entry of a flat row. -/
abbrev batchOf (r : Fin 65536) : Fin 32 := ⟨r.val / 2048, by have := r.isLt; omega⟩
/-- Position of a flat row inside its batch entry. -/
abbrev posOf (r : Fin 65536) : Fin 2048 := ⟨r.val % 2048, by omega⟩

/-- The flat input is the input reshaped. -/
theorem flat_eq (c : Dev nD) : (V m c main_v0 : S65536x512.Idx → EReal)
    = shapeCast S65536x512 (m ((c : Thread nD τ).loc main_arg0)) shapeCasts_S32x2048x512_S65536x512 := by
  show StableHlo.after hostOps0 (fun b => m (c, b)) (Proc.devRef .tc main_v0) = _
  after_results
  rfl

/-- Row r, lane l of the flat input is x[r / 2048, r mod 2048, l]. -/
theorem flat_apply (c : Dev nD) (r : Fin 65536) (l : Fin 512) :
    (V m c main_v0 : S65536x512.Idx → EReal) (ix2 r l) = m ((c : Thread nD τ).loc main_arg0) (ix3 (batchOf r) (posOf r) l) := by
  rw [flat_eq]
  refine shapeCast_apply _ _ (ix2 r l) (ix3 (batchOf r) (posOf r) l) ?_
  rw [Shape.rowMajor_val_three, Shape.rowMajor_val_two]
  show (r.val / 2048 * 2048 + r.val % 2048) * 512 + l.val = r.val * 512 + l.val
  omega

/-- The first layer's weights as the region finds them: transposed. -/
theorem w1t_eq (c : Dev nD) : (V m c main_v1 : S8x2048.Idx → EReal)
    = transpose S8x2048 [1, 0] (m ((c : Thread nD τ).loc main_arg2)) transposes_S2048x8_S8x2048_1_0 := by
  show StableHlo.after hostOps0 (fun b => m (c, b)) (Proc.devRef .tc main_v1) = _
  after_results

theorem w1t_apply (c : Dev nD) (q : Fin 8) (f : Fin 2048) :
    (V m c main_v1 : S8x2048.Idx → EReal) (ix2 q f) = m ((c : Thread nD τ).loc main_arg2) (ix2 f q) := by
  rw [w1t_eq]
  exact transpose_apply [1, 0] _ _ (ix2 q f) (ix2 f q) fun b => by
    match b with
    | ⟨0, _⟩ => rfl
    | ⟨1, _⟩ => rfl

/-- The second layer's weights as the region finds them: transposed. -/
theorem w2t_eq (c : Dev nD) : (V m c main_v2 : S2048x512.Idx → EReal)
    = transpose S2048x512 [1, 0] (m ((c : Thread nD τ).loc main_arg4)) transposes_S512x2048_S2048x512_1_0 := by
  show StableHlo.after hostOps0 (fun b => m (c, b)) (Proc.devRef .tc main_v2) = _
  after_results

theorem w2t_apply (c : Dev nD) (f : Fin 2048) (e : Fin 512) :
    (V m c main_v2 : S2048x512.Idx → EReal) (ix2 f e) = m ((c : Thread nD τ).loc main_arg4) (ix2 e f) := by
  rw [w2t_eq]
  exact transpose_apply [1, 0] _ _ (ix2 f e) (ix2 e f) fun b => by
    match b with
    | ⟨0, _⟩ => rfl
    | ⟨1, _⟩ => rfl

/-- The angles as a one-row matrix. -/
theorem theta_eq (c : Dev nD) : (V m c main_v3 : S1x8.Idx → EReal)
    = shapeCast S1x8 (m ((c : Thread nD τ).loc main_arg1)) shapeCasts_S8_S1x8 := by
  show StableHlo.after hostOps0 (fun b => m (c, b)) (Proc.devRef .tc main_v3) = _
  after_results
  rfl

theorem theta_apply (c : Dev nD) (q : Fin 8) :
    (V m c main_v3 : S1x8.Idx → EReal) (ix2 0 q) = m ((c : Thread nD τ).loc main_arg1) (ix1 q) := by
  rw [theta_eq]
  refine shapeCast_apply _ _ (ix2 0 q) (ix1 q) ?_
  rw [Shape.rowMajor_val_one, Shape.rowMajor_val_two]
  show q.val = 0 * 8 + q.val
  omega

/-- The first bias as a one-row matrix. -/
theorem b1_eq (c : Dev nD) : (V m c main_v4 : S1x2048.Idx → EReal)
    = shapeCast S1x2048 (m ((c : Thread nD τ).loc main_arg3)) shapeCasts_S2048_S1x2048 := by
  show StableHlo.after hostOps0 (fun b => m (c, b)) (Proc.devRef .tc main_v4) = _
  after_results
  rfl

theorem b1_apply (c : Dev nD) (f : Fin 2048) :
    (V m c main_v4 : S1x2048.Idx → EReal) (ix2 0 f) = m ((c : Thread nD τ).loc main_arg3) (ix1 f) := by
  rw [b1_eq]
  refine shapeCast_apply _ _ (ix2 0 f) (ix1 f) ?_
  rw [Shape.rowMajor_val_one, Shape.rowMajor_val_two]
  show f.val = 0 * 2048 + f.val
  omega

/-- The second bias as a one-row matrix. -/
theorem b2_eq (c : Dev nD) : (V m c main_v5 : S1x512.Idx → EReal)
    = shapeCast S1x512 (m ((c : Thread nD τ).loc main_arg5)) shapeCasts_S512_S1x512 := by
  show StableHlo.after hostOps0 (fun b => m (c, b)) (Proc.devRef .tc main_v5) = _
  after_results
  rfl

theorem b2_apply (c : Dev nD) (e : Fin 512) :
    (V m c main_v5 : S1x512.Idx → EReal) (ix2 0 e) = m ((c : Thread nD τ).loc main_arg5) (ix1 e) := by
  rw [b2_eq]
  refine shapeCast_apply _ _ (ix2 0 e) (ix1 e) ?_
  rw [Shape.rowMajor_val_one, Shape.rowMajor_val_two]
  show e.val = 0 * 512 + e.val
  omega

end Cert.FeedForward

end
-- ==== Proof.KernelBlocks.lean ====
/-
  The region's output array after the run.

  Grid point t holds rows 1024·t … 1024·t + 1023 of the flat input and every other operand whole, so what it writes
  back is rows 1024·t … of one function of the argument arrays: entry (r, e) of the flat result is `out` at batch
  entry r / 2048, position r mod 2048, lane e. The 64 blocks tile the 65536 rows, so the array ends holding that
  function everywhere.
-/
import proofs.«144792_j65481071401652_1_alg».proof.Proof.KernelBody
import proofs.«144792_j65481071401652_1_alg».proof.Proof.KernelArrays
import proofs.«144792_j65481071401652_1_alg».proof.Proof.Gen.KernelIdeal.Points

noncomputable section

namespace Cert.FeedForward

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem zeroOffsets : (![0, 0] : Fin 2 → Nat) = fun _ => 0 := funext fun a => by fin_cases a <;> rfl

/-- Entry (r, e) of the flat result, as a function of the six arguments. -/
def flatOut (c : Dev nD) : S65536x512.Idx → EReal := fun j =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (batchOf (j 0)) (posOf (j 0)) (j 1)

/-- The block index maps over the grid: the input's and the output's row blocks move with the point, every other
    operand stays at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem points : cfg0.N = 64 := N_0

/-- The flat row that row p of point t's block is. -/
abbrev rowOf (t : Fin cfg0.N) (p : Fin 1024) : Fin 65536 :=
  ⟨t.val * 1024 + p.val, by have := t.isLt; have := points; have := p.isLt; omega⟩

/-- The blocks a point holds, at their literal types. -/
abbrev rowsBlk (c : Dev nD) (t : Fin cfg0.N) : Vec Ideal S1024x512 .f32 := iblk m c 0 t
abbrev thetaBlk (c : Dev nD) (t : Fin cfg0.N) : Vec Ideal S1x8 .f32 := iblk m c 1 t
abbrev w1tBlk (c : Dev nD) (t : Fin cfg0.N) : Vec Ideal S8x2048 .f32 := iblk m c 2 t
abbrev b1Blk (c : Dev nD) (t : Fin cfg0.N) : Vec Ideal S1x2048 .f32 := iblk m c 3 t
abbrev w2tBlk (c : Dev nD) (t : Fin cfg0.N) : Vec Ideal S2048x512 .f32 := iblk m c 4 t
abbrev b2Blk (c : Dev nD) (t : Fin cfg0.N) : Vec Ideal S1x512 .f32 := iblk m c 5 t

/-- Row p of point t's input block is flat row 1024·t + p. -/
theorem rowsBlk_apply (c : Dev nD) (t : Fin cfg0.N) (p : Fin 1024) (l : Fin 512) :
    rowsBlk m c t (ix2 p l) = (V m c main_v0 : S65536x512.Idx → EReal) (ix2 (rowOf t p) l) := by
  obtain ⟨e0, e1, -⟩ := block_indices t
  show (V m c main_v0 : S65536x512.Idx → EReal) (((cfg0.win 0).blk t).view.emb (ix2 p l)) = _
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 512 + 1 * l.val = l.val; omega

/-- Every other operand's block is the whole array. -/
theorem thetaBlk_apply (c : Dev nD) (t : Fin cfg0.N) (q : Fin 8) :
    thetaBlk m c t (ix2 0 q) = (V m c main_v3 : S1x8.Idx → EReal) (ix2 0 q) := by
  obtain ⟨-, -, e0, e1, -⟩ := block_indices t
  show (V m c main_v3 : S1x8.Idx → EReal) (((cfg0.win 1).blk t).view.emb (ix2 0 q)) = _
  refine congrArg _ (funext fun a => Fin.ext ?_)
  match a with
  | ⟨0, _⟩ => show win0_1.index t (0 : Fin 2) * 1 + 1 * 0 = 0; omega
  | ⟨1, _⟩ => show win0_1.index t (1 : Fin 2) * 8 + 1 * q.val = q.val; omega

theorem w1tBlk_apply (c : Dev nD) (t : Fin cfg0.N) (q : Fin 8) (f : Fin 2048) :
    w1tBlk m c t (ix2 q f) = (V m c main_v1 : S8x2048.Idx → EReal) (ix2 q f) := by
  obtain ⟨-, -, -, -, e0, e1, -⟩ := block_indices t
  show (V m c main_v1 : S8x2048.Idx → EReal) (((cfg0.win 2).blk t).view.emb (ix2 q f)) = _
  refine congrArg _ (funext fun a => Fin.ext ?_)
  match a with
  | ⟨0, _⟩ => show win0_2.index t (0 : Fin 2) * 8 + 1 * q.val = q.val; omega
  | ⟨1, _⟩ => show win0_2.index t (1 : Fin 2) * 2048 + 1 * f.val = f.val; omega

theorem b1Blk_apply (c : Dev nD) (t : Fin cfg0.N) (f : Fin 2048) :
    b1Blk m c t (ix2 0 f) = (V m c main_v4 : S1x2048.Idx → EReal) (ix2 0 f) := by
  obtain ⟨-, -, -, -, -, -, e0, e1, -⟩ := block_indices t
  show (V m c main_v4 : S1x2048.Idx → EReal) (((cfg0.win 3).blk t).view.emb (ix2 0 f)) = _
  refine congrArg _ (funext fun a => Fin.ext ?_)
  match a with
  | ⟨0, _⟩ => show win0_3.index t (0 : Fin 2) * 1 + 1 * 0 = 0; omega
  | ⟨1, _⟩ => show win0_3.index t (1 : Fin 2) * 2048 + 1 * f.val = f.val; omega

theorem w2tBlk_apply (c : Dev nD) (t : Fin cfg0.N) (f : Fin 2048) (e : Fin 512) :
    w2tBlk m c t (ix2 f e) = (V m c main_v2 : S2048x512.Idx → EReal) (ix2 f e) := by
  obtain ⟨-, -, -, -, -, -, -, -, e0, e1, -⟩ := block_indices t
  show (V m c main_v2 : S2048x512.Idx → EReal) (((cfg0.win 4).blk t).view.emb (ix2 f e)) = _
  refine congrArg _ (funext fun a => Fin.ext ?_)
  match a with
  | ⟨0, _⟩ => show win0_4.index t (0 : Fin 2) * 2048 + 1 * f.val = f.val; omega
  | ⟨1, _⟩ => show win0_4.index t (1 : Fin 2) * 512 + 1 * e.val = e.val; omega

theorem b2Blk_apply (c : Dev nD) (t : Fin cfg0.N) (e : Fin 512) :
    b2Blk m c t (ix2 0 e) = (V m c main_v5 : S1x512.Idx → EReal) (ix2 0 e) := by
  obtain ⟨-, -, -, -, -, -, -, -, -, -, e0, e1, -⟩ := block_indices t
  show (V m c main_v5 : S1x512.Idx → EReal) (((cfg0.win 5).blk t).view.emb (ix2 0 e)) = _
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * e.val = e.val; omega

/-- Row p of what point t stores is flat row 1024·t + p of the result. -/
theorem point_row (c : Dev nD) (t : Fin cfg0.N) (p : Fin 1024) (e : Fin 512) :
    k0_pay1 (F := Ideal) (rowsBlk m c t) (thetaBlk m c t) (w1tBlk m c t) (b1Blk m c t) (w2tBlk m c t) (b2Blk m c t) (ix2 p e)
      = flatOut m c (ix2 (rowOf t p) e) := by
  refine (payload_apply (rowsBlk m c t) (thetaBlk m c t) (w1tBlk m c t) (b1Blk m c t) (w2tBlk m c t) (b2Blk m c t) p e).trans ?_
  unfold flatOut out
  refine rowOut_congr (fun q => ?_) (fun f q => ?_) (fun f => ?_) (fun e f => ?_) (fun e => ?_) e
  · unfold features
    rw [thetaBlk_apply, rowsBlk_apply, theta_apply, flat_apply]
  · rw [w1tBlk_apply, w1t_apply]
  · rw [b1Blk_apply, b1_apply]
  · rw [w2tBlk_apply, w2t_apply]
  · rw [b2Blk_apply, b2_apply]

/-- What point t writes back is block t of the flat result. -/
theorem flushed_eq (c : Dev nD) (t : Fin cfg0.N) :
    (dats m 0 c).flushed 6 t = ((cfg0.win 6).blk t).view.read (Elt Ideal) (flatOut m c) := by
  show (cfg0.win 6).cut (grid0.coords t) ((dats m 0 c).after 6 t) = _
  rw [after0_6]
  unfold out0_6
  rw [View.canon_unit_zero zeroOffsets]
  simp only [View.ld_unit_zero (S := S1024x512) zeroOffsets, View.ld_unit_zero (S := S1x8) zeroOffsets,
    View.ld_unit_zero (S := S8x2048) zeroOffsets, View.ld_unit_zero (S := S1x2048) zeroOffsets,
    View.ld_unit_zero (S := S2048x512) zeroOffsets, View.ld_unit_zero (S := S1x512) zeroOffsets]
  obtain ⟨-, -, -, -, -, -, -, -, -, -, -, -, e0, e1⟩ := block_indices t
  funext y
  obtain ⟨p, e, rfl⟩ : ∃ (p : Fin 1024) (e : Fin 512), y = ix2 p e := ⟨y 0, y 1, eq_ix2 y⟩
  show k0_pay1 (F := Ideal) (rowsBlk m c t) (thetaBlk m c t) (w1tBlk m c t) (b1Blk m c t) (w2tBlk m c t) (b2Blk m c t) (ix2 p e)
    = flatOut m c (((cfg0.win 6).blk t).view.emb (ix2 p e))
  rw [point_row]
  refine congrArg (flatOut m c) (funext fun a => Fin.ext ?_)
  match a with
  | ⟨0, _⟩ => show t.val * 1024 + p.val = win0_6.index t (0 : Fin 2) * 1024 + 1 * p.val; omega
  | ⟨1, _⟩ => show e.val = win0_6.index t (1 : Fin 2) * 512 + 1 * e.val; omega

/-- An index of the flat result is in point t's block iff each coordinate is in the block's range. -/
theorem mem_block (t : Fin cfg0.N) (i : S65536x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v6).slice (win0_6.rect t)).set ↔ _
  rw [View.set_slice_whole, Rect.mem_set_unit]
  exact Iff.rfl

/-- Row r lies in the block of point r / 1024. -/
theorem covered (i : S65536x512.Idx) :
    ∃ t : Fin cfg0.N, (cfg0.win 6).flush t = true ∧ i ∈ ((cfg0.win 6).blk t).view.set := by
  have hi0 : (i 0).val < 65536 := (i 0).isLt
  have hi1 : (i 1).val < 512 := (i 1).isLt
  have hN := points
  obtain ⟨t, ht⟩ : ∃ t : Fin cfg0.N, t.val = (i 0).val / 1024 := ⟨⟨(i 0).val / 1024, by omega⟩, rfl⟩
  obtain ⟨-, -, -, -, -, -, -, -, -, -, -, -, e0, e1⟩ := block_indices t
  refine ⟨t, flush0_6 t, ?_⟩
  rw [mem_block]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

/-- The region's output array ends holding the flat result. -/
theorem final (c : Dev nD) : (dats m 0 c).arrAt 6 cfg0.N = flatOut m c :=
  (dats m 0 c).arrAt_eq_of_cover 6 (flatOut m c) (fun t _ => flushed_eq m c t) covered

end Cert.FeedForward

end
-- ==== Proof.KernelRun.lean ====
/-
  The kernel program's run, with its result named.

  After the region the host reshapes the flat result back to [32, 2048, 512]: entry (b, n, e) of the result is entry
  (2048·b + n, e) of the flat result, which is `out` at (b, n, e). The run itself is the frame run, re-posted with
  the result array at that function and the arguments unchanged.
-/
import proofs.«144792_j65481071401652_1_alg».proof.Proof.KernelBlocks

noncomputable section

namespace Cert.FeedForward

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The result as one function of the six arguments. -/
def result (c : Dev nD) : S32x2048x512.Idx → EReal := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (i 0) (i 1) (i 2)

/-- What the lines after the region find in the region's output array: the flat result. -/
theorem tail_array (c : Dev nD) :
    Pipeline.withArrays spec0 c (V0 m c) (fun w => (dats m 0 c).arrAt w cfg0.N) (Proc.devRef .tc main_v6) = flatOut m c :=
  (Pipeline.withArrays_arr spec0 launch0.win.arr_inj c (V0 m c) _ 6).trans (final m c)

/-- The flat result reshaped is the result: flat row 2048·b + n is row n of batch entry b. -/
theorem reshaped_flat (c : Dev nD) (h : S65536x512.ShapeCasts S32x2048x512) :
    shapeCast S32x2048x512 (flatOut m c) h = result m c := by
  funext i
  obtain ⟨b, n, e, rfl⟩ : ∃ (b : Fin 32) (n : Fin 2048) (e : Fin 512), i = ix3 b n e := ⟨i 0, i 1, i 2, eq_ix3 i⟩
  have hr : b.val * 2048 + n.val < 65536 := by have := b.isLt; have := n.isLt; omega
  refine (shapeCast_apply (flatOut m c) h (ix3 b n e) (ix2 ⟨b.val * 2048 + n.val, hr⟩ e) ?_).trans ?_
  · rw [Shape.rowMajor_val_two, Shape.rowMajor_val_three]
    rfl
  · have hb : batchOf ⟨b.val * 2048 + n.val, hr⟩ = b := Fin.ext (by
      show (b.val * 2048 + n.val) / 2048 = b.val
      have := n.isLt; omega)
    have hn : posOf ⟨b.val * 2048 + n.val, hr⟩ = n := Fin.ext (by
      show (b.val * 2048 + n.val) % 2048 = n.val
      have := n.isLt; omega)
    show out _ _ _ _ _ _ (batchOf ⟨b.val * 2048 + n.val, hr⟩) (posOf ⟨b.val * 2048 + n.val, hr⟩) e = out _ _ _ _ _ _ b n e
    rw [hb, hn]

/-- The result array after the lines that follow the region. -/
theorem result_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  show shapeCast S32x2048x512 (Pipeline.withArrays spec0 c (V0 m c) (fun w => (dats m 0 c).arrAt w cfg0.N) (Proc.devRef .tc main_v6))
    shapeCasts_S65536x512_S32x2048x512 = _
  rw [tail_array]
  exact reshaped_flat m c _

/-- Every weakly fair execution of the kernel program ends with the result array at `result` of the arguments and
    the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.FeedForward

end
-- ==== Proof.lean ====
/-
  A two-layer feed-forward head on eight cosine features, as one fused kernel, against its array-level reference.

  Both programs compute, for batch entry b, position n and output lane e,
      out[b, n, e] = Σ_f max (Σ_q (cos θ_q · cos x[b, n, q]) · W1[f, q] + b1[f]) 0 · W2[e, f] + b2[e]
  on the extended reals (`FeedForward.out`). The kernel works on the input flattened to 65536 rows, 1024 rows per
  grid point, with both weight matrices transposed and the angles and biases as one-row matrices; its two matrix
  products start from the zero array, so each entry is the plain sum over the contracted coordinate, in the same
  order of factors as the reference's contractions. The two sides are therefore the same term once every array is read
  at the index of the argument it comes from: no law of arithmetic beyond reading the sums is used, and the
  finiteness of the inputs is never opened.

  The kernel's frames are the generated ones; the reference's frame is its run with the result dropped. The
  idealization rewrote nothing, so it has nothing to preserve.
-/
import proofs.«144792_j65481071401652_1_alg».proof.Defs
import proofs.«144792_j65481071401652_1_alg».proof.Proof.Gen.Kernel
import proofs.«144792_j65481071401652_1_alg».proof.Proof.Gen.Kernel.Skeleton
import proofs.«144792_j65481071401652_1_alg».proof.Proof.Gen.Kernel.Launch
import proofs.«144792_j65481071401652_1_alg».proof.Proof.Gen.Kernel.Points
import proofs.«144792_j65481071401652_1_alg».proof.Proof.Gen.Kernel.Frame
import proofs.«144792_j65481071401652_1_alg».proof.Proof.Gen.KernelIdeal
import proofs.«144792_j65481071401652_1_alg».proof.Proof.Gen.KernelIdeal.Skeleton
import proofs.«144792_j65481071401652_1_alg».proof.Proof.Gen.KernelIdeal.Launch
import proofs.«144792_j65481071401652_1_alg».proof.Proof.Gen.KernelIdeal.Points
import proofs.«144792_j65481071401652_1_alg».proof.Proof.Gen.KernelIdeal.Frame
import proofs.«144792_j65481071401652_1_alg».proof.Proof.Gen.ReferenceIdeal
import proofs.«144792_j65481071401652_1_alg».proof.Proof.Gen.ReferenceIdeal.Run
import proofs.«144792_j65481071401652_1_alg».proof.Proof.Gen.ReferenceIdeal.Read
import proofs.«144792_j65481071401652_1_alg».proof.Proof.Gen.Pre_finite_inputs
import proofs.«144792_j65481071401652_1_alg».proof.Proof.Reference
import proofs.«144792_j65481071401652_1_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at `FeedForward.out` of
    those arguments. -/
theorem algebraic : Cert.algebraic_KernelIdeal_ReferenceIdeal := by
  intro m ρ m' ρ' _ hagree
  refine ⟨fun c => Cert.FeedForward.result m c, Cert.FeedForward.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v14_eq, h0, h1, h2, h3, h4, h5]
  funext i
  exact Cert.FeedForward.reference_apply _ _ _ _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
